-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536 : Shape := ⟨1, ![65536]⟩
abbrev S384x128 : Shape := ⟨2, ![384, 128]⟩
abbrev S384 : Shape := ⟨1, ![384]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536 : S_.BroadcastsInDim S65536 (![] : Fin 0 → Fin S65536.rank)
  reducesTo_S65536_S_d0 : S65536.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_arg5 : FVec F S384x128 .f32) (main_arg6 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S65536x128 .f32) (main_arg1 : FVec F S65536x128 .f32) (main_arg2 : FVec F S65536 .f32) (main_arg3 : FVec F S384x128 .f32) (main_arg4 : FVec F S384 .f32) (main_arg5 : FVec F S384x128 .f32) (main_arg6 : FVec F S384 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S65536x128 : Shape := ⟨2, ![65536, 128]⟩
abbrev S65536 : Shape := ⟨1, ![65536]⟩
abbrev S384x128 : Shape := ⟨2, ![384, 128]⟩
abbrev S384 : Shape := ⟨1, ![384]⟩
abbrev S128x384 : Shape := ⟨2, ![128, 384]⟩
abbrev S65536x1 : Shape := ⟨2, ![65536, 1]⟩
abbrev S2048x128 : Shape := ⟨2, ![2048, 128]⟩
abbrev S2048x1 : Shape := ⟨2, ![2048, 1]⟩
abbrev S2048x384 : Shape := ⟨2, ![2048, 384]⟩
abbrev S1x384 : Shape := ⟨2, ![1, 384]⟩

abbrev nBuf : Space → Nat
  | .hbm => 11
  | .vmem => 12
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536, .f32⟩
  | .hbm, ⟨3, _⟩ => ⟨S384x128, .f32⟩
  | .hbm, ⟨4, _⟩ => ⟨S384, .f32⟩
  | .hbm, ⟨5, _⟩ => ⟨S384x128, .f32⟩
  | .hbm, ⟨6, _⟩ => ⟨S384, .f32⟩
  | .hbm, ⟨7, _⟩ => ⟨S128x384, .f32⟩
  | .hbm, ⟨8, _⟩ => ⟨S128x384, .f32⟩
  | .hbm, ⟨9, _⟩ => ⟨S65536x1, .f32⟩
  | .hbm, ⟨10, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S128x384, .f32⟩
  | .local _ .vmem, ⟨7, _⟩ => ⟨S384, .f32⟩
  | .local _ .vmem, ⟨8, _⟩ => ⟨S128x384, .f32⟩
  | .local _ .vmem, ⟨9, _⟩ => ⟨S384, .f32⟩
  | .local _ .vmem, ⟨10, _⟩ => ⟨S2048x128, .f32⟩
  | .local _ .vmem, ⟨11, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S384x128_S128x384_1_0 : S384x128.Transposes [1, 0] S128x384
  shapeCasts_S65536_S65536x1 : S65536.ShapeCasts S65536x1
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S128x384_S128x384_0_0 : ∀ a, (![0, 0] : Fin 2 → Nat) a + S128x384.size a ≤ S128x384.size a
  h_S128x384 : 0 < S128x384.numel
  shapeCasts_S128x384_S128x384 : S128x384.ShapeCasts S128x384
  bitsLt_bf16_f32 : FTy.bits .bf16 < FTy.bits .f32
  inb_S384_S384_0 : ∀ a, (![0] : Fin 1 → Nat) a + S384.size a ≤ S384.size a
  h_S384 : 0 < S384.numel
  shapeCasts_S384_S1x384 : S384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  broadcasts_S2048x1_S2048x128 : S2048x1.Broadcasts S2048x128
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384.size a ≤ S384.size a
  hwx0_6 : ∀ i : grid0.Coords, EltTy.bits .f32 = 32 ∨ (Rect.block (s := S384) S384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536 : Shape := ⟨1, ![65536]⟩
abbrev S384x128 : Shape := ⟨2, ![384, 128]⟩
abbrev S384 : Shape := ⟨1, ![384]⟩
abbrev S65536x384 : Shape := ⟨2, ![65536, 384]⟩
abbrev S1x384 : Shape := ⟨2, ![1, 384]⟩
abbrev S_ : Shape := ⟨0, ![]⟩
abbrev S65536x1 : Shape := ⟨2, ![65536, 1]⟩

abbrev nBuf : Space → Nat
  | .hbm => 51
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536, .f32⟩
  | .hbm, ⟨3, _⟩ => ⟨S384x128, .f32⟩
  | .hbm, ⟨4, _⟩ => ⟨S384, .f32⟩
  | .hbm, ⟨5, _⟩ => ⟨S384x128, .f32⟩
  | .hbm, ⟨6, _⟩ => ⟨S384, .f32⟩
  | .hbm, ⟨7, _⟩ => ⟨S65536x384, .f32⟩
  | .hbm, ⟨8, _⟩ => ⟨S1x384, .f32⟩
  | .hbm, ⟨9, _⟩ => ⟨S65536x384, .f32⟩
  | .hbm, ⟨10, _⟩ => ⟨S65536x384, .f32⟩
  | .hbm, ⟨11, _⟩ => ⟨S65536x384, .f32⟩
  | .hbm, ⟨12, _⟩ => ⟨S1x384, .f32⟩
  | .hbm, ⟨13, _⟩ => ⟨S65536x384, .f32⟩
  | .hbm, ⟨14, _⟩ => ⟨S65536x384, .f32⟩
  | .hbm, ⟨15, _⟩ => ⟨S65536x128, .f32⟩
  | .hbm, ⟨16, _⟩ => ⟨S65536x128, .f32⟩
  | .hbm, ⟨17, _⟩ => ⟨S65536x128, .f32⟩
  | .hbm, ⟨18, _⟩ => ⟨S65536x128, .f32⟩
  | .hbm, ⟨19, _⟩ => ⟨S65536x128, .f32⟩
  | .hbm, ⟨20, _⟩ => ⟨S65536x128, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S_, .f32⟩
  | .hbm, ⟨25, _⟩ => ⟨S65536x128, .f32⟩
  | .hbm, ⟨26, _⟩ => ⟨S65536x128, .f32⟩
  | .hbm, ⟨27, _⟩ => ⟨S_, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S65536x128, .f32⟩
  | .hbm, ⟨42, _⟩ => ⟨S65536x1, .f32⟩
  | .hbm, ⟨43, _⟩ => ⟨S65536x128, .f32⟩
  | .hbm, ⟨44, _⟩ => ⟨S65536x128, .f32⟩
  | .hbm, ⟨45, _⟩ => ⟨S_, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  bcast_S_S65536x128 : S_.BroadcastsInDim S65536x128 (![] : Fin 0 → Fin S65536x128.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  dot_S65536x128_S384x128_S65536x384_1_1_0_0_n_n_wf : DotDims.WF S65536x128 S384x128 S65536x384 [1] [1] [0] [0] [] []

variable [Facts₀]

def dot_S65536x128_S384x128_S65536x384_1_1_0_0_n_n : DotDims S65536x128 S384x128 S65536x384 where
  lhsContracting := [1]
  rhsContracting := [1]
  lhsNonContracting := [0]
  rhsNonContracting := [0]
  lhsBatch := []
  rhsBatch := []
  wf := dot_S65536x128_S384x128_S65536x384_1_1_0_0_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Cell.lean ====
/-
  A recurrent cell whose update gate is scaled by an attention score, as one function of its arguments.

  Fix a batch row and write `xr`, `hr` for that row of the input and of the previous state (128 entries each) and
  `a` for the row's attention score. The weights are 384 × 128: three stacked blocks of 128 gate rows (update, reset,
  candidate), with a bias of 384 entries. A gate pre-activation is a row of weights against a data row, plus its bias:

      pre r w b g = Σ_k r k · w g k + b g.

  For hidden unit `j`, with σ z = 1 / (1 + e^(−z)):

      u  = σ (pre xr wx bx j         + pre hr wh bh j)
      ρ  = σ (pre xr wx bx (128 + j) + pre hr wh bh (128 + j))
      c  = tanh (pre xr wx bx (256 + j) + ρ · pre hr wh bh (256 + j))
      new state = (1 − a·u) · hr j + (a·u) · c.

  Everything is read on the extended reals, with the conventions there for division, the exponential and tanh at
  the infinities. No law beyond the definitions is used anywhere: both programs compute this expression, tree for tree,
  and only the order and the indexing of the 128-term sums differ.
-/
import Idealize.ShloMosaic.PureOps.Ideal.Laws
import Idealize.ShloMosaic.Lib.ValueIdx

noncomputable section

namespace Cert.GatedCell

open Idealize.ShloMosaic Idealize.ShloMosaic.ValueIdx

/-- Gate row `j` of the update block, of the reset block, of the candidate block. -/
abbrev rowU (j : Fin 128) : Fin 384 := ⟨j.val, by have := j.isLt; omega⟩
abbrev rowR (j : Fin 128) : Fin 384 := ⟨128 + j.val, by have := j.isLt; omega⟩
abbrev rowC (j : Fin 128) : Fin 384 := ⟨256 + j.val, by have := j.isLt; omega⟩

/-- A gate pre-activation: a data row against a weight row, plus the bias. -/
def pre (r : Fin 128 → EReal) (w : Fin 384 → Fin 128 → EReal) (b : Fin 384 → EReal) (g : Fin 384) : EReal :=
  (∑ k : Fin 128, r k * w g k) + b g

/-- The update gate, the reset gate and the candidate state of hidden unit `j`. -/
def upd (xr hr : Fin 128 → EReal) (wx wh : Fin 384 → Fin 128 → EReal) (bx bh : Fin 384 → EReal) (j : Fin 128) : EReal :=
  Ideal.logistic (pre xr wx bx (rowU j) + pre hr wh bh (rowU j))
def rst (xr hr : Fin 128 → EReal) (wx wh : Fin 384 → Fin 128 → EReal) (bx bh : Fin 384 → EReal) (j : Fin 128) : EReal :=
  Ideal.logistic (pre xr wx bx (rowR j) + pre hr wh bh (rowR j))
def cand (xr hr : Fin 128 → EReal) (wx wh : Fin 384 → Fin 128 → EReal) (bx bh : Fin 384 → EReal) (j : Fin 128) : EReal :=
  Ideal.tanh (pre xr wx bx (rowC j) + rst xr hr wx wh bx bh j * pre hr wh bh (rowC j))

/-- The new state of hidden unit `j` of one batch row. -/
def unit (xr hr : Fin 128 → EReal) (a : EReal) (wx wh : Fin 384 → Fin 128 → EReal) (bx bh : Fin 384 → EReal) (j : Fin 128) : EReal :=
  (1 - a * upd xr hr wx wh bx bh j) * hr j + a * upd xr hr wx wh bx bh j * cand xr hr wx wh bx bh j

/-- The whole new state: every row of the batch through `unit`, the weights read as stored (gate row first). -/
def next (x h : FVec Ideal ⟨2, ![65536, 128]⟩ .f32) (att : FVec Ideal ⟨1, ![65536]⟩ .f32)
    (Wx : FVec Ideal ⟨2, ![384, 128]⟩ .f32) (bx : FVec Ideal ⟨1, ![384]⟩ .f32)
    (Wh : FVec Ideal ⟨2, ![384, 128]⟩ .f32) (bh : FVec Ideal ⟨1, ![384]⟩ .f32) : FVec Ideal ⟨2, ![65536, 128]⟩ .f32 :=
  fun i => unit (fun k => x (ix2 (i 0) k)) (fun k => h (ix2 (i 0) k)) (att (ix1 (i 0)))
    (fun g k => Wx (ix2 g k)) (fun g k => Wh (ix2 g k)) (fun g => bx (ix1 g)) (fun g => bh (ix1 g)) (i 1)

/-- The float word `0x3F800000` is the number one. -/
theorem one_word : Ideal.ofBits .f32 0x3F800000#32 = (1 : EReal) := by
  simp [Ideal.ofBits, Ideal.ieee, -EReal.coe_mul]; norm_num

/-- σ spelt out with division, the exponential and negation is σ. -/
theorem logistic_spelt (z : EReal) : Ideal.div 1 (1 + Ideal.exp (-z)) = Ideal.logistic z := rfl

end Cert.GatedCell

end
-- ==== Proof.BodyCell.lean ====
/-
  The kernel body computes the gated cell on a block of 2048 batch rows.

  The body holds a block of 2048 rows of the input and of the previous state, the rows' attention scores as a
  2048 × 1 column, and the two weight arrays TRANSPOSED (128 × 384: contraction index first, gate row second) with
  their biases. Its one store writes, at row `p` and hidden unit `q` of the block, the cell's new state of that row:
  each of the two products into a zero accumulator is, at `(p, g)`, the sum over `k` of the data row against column
  `g` of the transposed weights, the bias is one row broadcast over the 2048, the three gates are the column ranges
  from 0, 128 and 256, and the attention column is broadcast along the hidden units. The changes of float format on
  the way into the products are the identity on the extended reals.
-/
import proofs.«166381_j38276748542530_1_alg».proof.Proof.Gen.KernelIdeal.Skeleton
import proofs.«166381_j38276748542530_1_alg».proof.Proof.LibDot
import proofs.«166381_j38276748542530_1_alg».proof.Proof.Cell
import Idealize.ShloMosaic.Lib.Pipeline.Value
import Idealize.ShloMosaic.Lib.ValueLayout

noncomputable section

namespace Cert.GatedCell.Body

open Idealize.ShloMosaic Idealize.ShloMosaic.ValueIdx Cert.KernelIdeal Cert.KernelIdeal.Gen Cert.GatedCell

/-- The body's product is rows by columns with one shared axis. -/
theorem dot_plain : dot_S2048x128_S128x384_S2048x384_1_0_0_1_n_n = DotDims.plain 2048 128 384 := rfl

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- A column broadcast along the hidden units reads the column's entry of the row. -/
theorem col_bcast (v : FVec Ideal S2048x1 .f32) (p : Fin 2048) (q : Fin 128) :
    broadcastTo S2048x128 v broadcasts_S2048x1_S2048x128 (ix2 p q) = v (ix2 p (0 : Fin 1)) := by
  refine broadcastTo_apply v _ (ix2 p q) (ix2 p (0 : Fin 1)) fun ax => ?_
  match ax with
  | ⟨0, _⟩ => show p.val = if (2048 : Nat) = 1 then 0 else p.val; rw [if_neg (by decide)]
  | ⟨1, _⟩ => show (0 : Nat) = if (1 : Nat) = 1 then 0 else q.val; rw [if_pos rfl]

/-- The three gate blocks of a 2048 × 384 array of pre-activations. -/
theorem slice_u (v : FVec Ideal S2048x384 .f32) (p : Fin 2048) (q : Fin 128) :
    extractStridedSlice S2048x128 ![0, 0] v slices_S2048x384_o0_0_S2048x128 (ix2 p q) = v (ix2 p (rowU q)) :=
  slice2_axis1_apply 0 v _ p q (rowU q) (Nat.zero_add _).symm
theorem slice_r (v : FVec Ideal S2048x384 .f32) (p : Fin 2048) (q : Fin 128) :
    extractStridedSlice S2048x128 ![0, 128] v slices_S2048x384_o0_128_S2048x128 (ix2 p q) = v (ix2 p (rowR q)) :=
  slice2_axis1_apply 128 v _ p q (rowR q) rfl
theorem slice_c (v : FVec Ideal S2048x384 .f32) (p : Fin 2048) (q : Fin 128) :
    extractStridedSlice S2048x128 ![0, 256] v slices_S2048x384_o0_256_S2048x128 (ix2 p q) = v (ix2 p (rowC q)) :=
  slice2_axis1_apply 256 v _ p q (rowC q) rfl

/-- A product of the body at row `p`, gate row `g`: the data row against column `g` of the transposed weights (the
    changes of float format are the identity here). -/
theorem mm_apply (a : FVec Ideal S2048x128 .f32) (w : FVec Ideal S128x384 .f32) (p : Fin 2048) (g : Fin 384) :
    matmul dot_S2048x128_S128x384_S2048x384_1_0_0_1_n_n none (truncf .bf16 a bitsLt_bf16_f32)
        (truncf .bf16 w bitsLt_bf16_f32) (constant S2048x384 .f32 0x00000000#32) (ix2 p g)
      = ∑ k : Fin 128, a (ix2 p k) * w (ix2 k g) := by
  rw [dot_plain]
  exact Cert.GNN.matmul_plain_zero_apply none (truncf .bf16 a bitsLt_bf16_f32) (truncf .bf16 w bitsLt_bf16_f32) p g

/-- The bias as one row broadcast over the block's rows. -/
theorem bias_apply (b : FVec Ideal S384 .f32) (p : Fin 2048) (g : Fin 384) :
    broadcastTo S2048x384 (shapeCast S1x384 b shapeCasts_S384_S1x384) broadcasts_S1x384_S2048x384 (ix2 p g) = b (ix1 g) :=
  (broadcastTo_1b_ab_apply _ _ p g).trans (shapeCast_a_1a_apply b _ (0 : Fin 1) g)

/-- THE BODY'S STORE at row `p`, hidden unit `q` of the block is the cell's new state for that row. -/
theorem pay_apply (v0 v1 : FVec Ideal S2048x128 .f32) (v2 : FVec Ideal S2048x1 .f32) (v4 v7 : FVec Ideal S128x384 .f32)
    (v10 v11 : FVec Ideal S384 .f32) (p : Fin 2048) (q : Fin 128) :
    k0_pay1 (F := Ideal) v0 v1 v2 v4 v7 v10 v11 (ix2 p q)
      = unit (fun k => v0 (ix2 p k)) (fun k => v1 (ix2 p k)) (v2 (ix2 p (0 : Fin 1)))
          (fun g k => v4 (ix2 k g)) (fun g k => v7 (ix2 k g)) (fun g => v10 (ix1 g)) (fun g => v11 (ix1 g)) q := by
  unfold k0_pay1
  simp only [addf_apply, mulf_apply, subf_apply, broadcast_apply, logistic_apply, tanh_apply, slice_u, slice_r, slice_c,
    mm_apply, bias_apply, col_bcast, shapeCast_self, Ideal.ofBits_def, one_word]
  rfl

end Cert.GatedCell.Body

end
-- ==== Proof.Blocks.lean ====
/-
  From blocks to the whole array: after the kernel's run the result array is the gated cell of the seven arguments.

  The grid has 32 points; point `t` works on batch rows 2048·t … 2048·t + 2047. Its blocks of the input, of the
  previous state and of the attention column are those rows; the transposed weights and the biases are whole at every
  point. Before the region the host transposes the two weight arrays and reshapes the attention scores to a column, so
  the body's transposed weight at `(k, g)` is the argument's at `(g, k)` and the column's entry of row `r` is the score
  of row `r`. Hence what point `t` writes back is rows 2048·t … of the cell's array, and the 32 blocks tile all 65536
  rows: row `r` lies in block `r / 2048`.
-/
import proofs.«166381_j38276748542530_1_alg».proof.Proof.Gen.KernelIdeal.Value
import proofs.«166381_j38276748542530_1_alg».proof.Proof.BodyCell
import Idealize.ShloMosaic.Lib.Pipeline.Value
import Idealize.ShloMosaic.Lib.ValueLayout
import Idealize.ShloMosaic.Lib.StableHlo.Run

noncomputable section

namespace Cert.GatedCell.Blocks

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.GatedCell

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The cell of the seven arguments as launched: what the result array ends holding. -/
abbrev G (c : Dev nD) : Buf (Elt Ideal) ((c : Thread nD τ).loc main_v3) :=
  next (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## What the host wrote before the region -/

theorem V_v0 (c : Dev nD) : (V m c main_v0 : FVec Ideal S128x384 .f32)
    = transpose S128x384 [1, 0] (m ((c : Thread nD τ).loc main_arg3) : FVec Ideal S384x128 .f32) transposes_S384x128_S128x384_1_0 := by
  dsimp only [V, hostOps0]; after_results
theorem V_v1 (c : Dev nD) : (V m c main_v1 : FVec Ideal S128x384 .f32)
    = transpose S128x384 [1, 0] (m ((c : Thread nD τ).loc main_arg5) : FVec Ideal S384x128 .f32) transposes_S384x128_S128x384_1_0 := by
  dsimp only [V, hostOps0]; after_results
theorem V_v2 (c : Dev nD) : (V m c main_v2 : FVec Ideal S65536x1 .f32)
    = shapeCast S65536x1 (m ((c : Thread nD τ).loc main_arg2) : FVec Ideal S65536 .f32) shapeCasts_S65536_S65536x1 := by
  dsimp only [V, hostOps0]; after_results; rfl

/-- The transposed weights at `(k, g)` are the arguments' at `(g, k)`; the attention column at row `r` is score `r`. -/
theorem wxT_apply (c : Dev nD) (k : Fin 128) (g : Fin 384) :
    (V m c main_v0 : FVec Ideal S128x384 .f32) (ix2 k g) = (m ((c : Thread nD τ).loc main_arg3) : FVec Ideal S384x128 .f32) (ix2 g k) := by
  rw [V_v0]; exact transpose_ix2_apply _ _ k g
theorem whT_apply (c : Dev nD) (k : Fin 128) (g : Fin 384) :
    (V m c main_v1 : FVec Ideal S128x384 .f32) (ix2 k g) = (m ((c : Thread nD τ).loc main_arg5) : FVec Ideal S384x128 .f32) (ix2 g k) := by
  rw [V_v1]; exact transpose_ix2_apply _ _ k g
theorem attCol_apply (c : Dev nD) (r : Fin 65536) :
    (V m c main_v2 : FVec Ideal S65536x1 .f32) (ix2 r (0 : Fin 1)) = (m ((c : Thread nD τ).loc main_arg2) : FVec Ideal S65536 .f32) (ix1 r) := by
  rw [V_v2]
  refine shapeCast_apply _ _ _ _ ?_
  show ((⟨1, ![65536]⟩ : Shape).rowMajor (ix1 r)).val = ((⟨2, ![65536, 1]⟩ : Shape).rowMajor (ix2 r (0 : Fin 1))).val
  rw [Shape.rowMajor_val_two, Shape.rowMajor_val_one]
  show r.val = r.val * 1 + 0
  omega

/-! ## The windows' blocks -/

/-- The printed index maps, decided over the 32 points: the three batch-tiled inputs and the output are at block row
    `t`, the weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem blk0 (c : Dev nD) (t : Fin cfg0.N) (p : Fin 2048) (k : Fin 128) (r : Fin 65536) (hr : r.val = t.val * 2048 + p.val) :
    (iblk m c 0 t : FVec Ideal S2048x128 .f32) (ix2 p k) = (V m c main_arg0 : FVec Ideal S65536x128 .f32) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 2048 + 1 * p.val = r.val; rw [e0, hr]; omega
  | ⟨1, _⟩ => show win0_0.index t 1 * 128 + 1 * k.val = k.val; rw [e1]; omega

theorem blk1 (c : Dev nD) (t : Fin cfg0.N) (p : Fin 2048) (k : Fin 128) (r : Fin 65536) (hr : r.val = t.val * 2048 + p.val) :
    (iblk m c 1 t : FVec Ideal S2048x128 .f32) (ix2 p k) = (V m c main_arg1 : FVec Ideal S65536x128 .f32) (ix2 r k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 2048 + 1 * p.val = r.val; rw [e0, hr]; omega
  | ⟨1, _⟩ => show win0_1.index t 1 * 128 + 1 * k.val = k.val; rw [e1]; omega

theorem blk2 (c : Dev nD) (t : Fin cfg0.N) (p : Fin 2048) (r : Fin 65536) (hr : r.val = t.val * 2048 + p.val) :
    (iblk m c 2 t : FVec Ideal S2048x1 .f32) (ix2 p (0 : Fin 1)) = (V m c main_v2 : FVec Ideal S65536x1 .f32) (ix2 r (0 : Fin 1)) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 2048 + 1 * p.val = r.val; rw [e0, hr]; omega
  | ⟨1, _⟩ => show win0_2.index t 1 * 1 + 1 * 0 = 0; rw [e1]

theorem blk3 (c : Dev nD) (t : Fin cfg0.N) (k : Fin 128) (g : Fin 384) :
    (iblk m c 3 t : FVec Ideal S128x384 .f32) (ix2 k g) = (V m c main_v0 : FVec Ideal S128x384 .f32) (ix2 k g) := by
  obtain ⟨-, -, -, -, -, -, e0, e1, -⟩ := idx_facts t
  unfold iblk
  rw [View.read_apply]
  show V m c main_v0 _ = V m c main_v0 _
  congr 1
  funext a
  apply Fin.ext
  match a with
  | ⟨0, _⟩ => show win0_3.index t 0 * 128 + 1 * k.val = k.val; rw [e0]; omega
  | ⟨1, _⟩ => show win0_3.index t 1 * 384 + 1 * g.val = g.val; rw [e1]; omega

theorem blk4 (c : Dev nD) (t : Fin cfg0.N) (g : Fin 384) :
    (iblk m c 4 t : FVec Ideal S384 .f32) (ix1 g) = (V m c main_arg4 : FVec Ideal S384 .f32) (ix1 g) := by
  obtain ⟨-, -, -, -, -, -, -, -, e0, -⟩ := idx_facts t
  unfold iblk
  rw [View.read_apply]
  show V m c main_arg4 _ = V m c main_arg4 _
  congr 1
  funext a
  apply Fin.ext
  match a with
  | ⟨0, _⟩ => show win0_4.index t 0 * 384 + 1 * g.val = g.val; rw [e0]; omega

theorem blk5 (c : Dev nD) (t : Fin cfg0.N) (k : Fin 128) (g : Fin 384) :
    (iblk m c 5 t : FVec Ideal S128x384 .f32) (ix2 k g) = (V m c main_v1 : FVec Ideal S128x384 .f32) (ix2 k g) := by
  obtain ⟨-, -, -, -, -, -, -, -, -, e0, e1, -⟩ := idx_facts t
  unfold iblk
  rw [View.read_apply]
  show V m c main_v1 _ = V m c main_v1 _
  congr 1
  funext a
  apply Fin.ext
  match a with
  | ⟨0, _⟩ => show win0_5.index t 0 * 128 + 1 * k.val = k.val; rw [e0]; omega
  | ⟨1, _⟩ => show win0_5.index t 1 * 384 + 1 * g.val = g.val; rw [e1]; omega

theorem blk6 (c : Dev nD) (t : Fin cfg0.N) (g : Fin 384) :
    (iblk m c 6 t : FVec Ideal S384 .f32) (ix1 g) = (V m c main_arg6 : FVec Ideal S384 .f32) (ix1 g) := by
  obtain ⟨-, -, -, -, -, -, -, -, -, -, -, e0, -⟩ := idx_facts t
  unfold iblk
  rw [View.read_apply]
  show V m c main_arg6 _ = V m c main_arg6 _
  congr 1
  funext a
  apply Fin.ext
  match a with
  | ⟨0, _⟩ => show win0_6.index t 0 * 384 + 1 * g.val = g.val; rw [e0]; omega

/-! ## What a point writes back -/

/-- The cell depends on its arguments only through the row functions it is given. -/
theorem unit_congr {xr xr' hr hr' : Fin 128 → EReal} {a a' : EReal} {wx wx' wh wh' : Fin 384 → Fin 128 → EReal}
    {bx bx' bh bh' : Fin 384 → EReal} (q : Fin 128) (e0 : xr = xr') (e1 : hr = hr') (e2 : a = a') (e3 : wx = wx')
    (e4 : wh = wh') (e5 : bx = bx') (e6 : bh = bh') : unit xr hr a wx wh bx bh q = unit xr' hr' a' wx' wh' bx' bh' q := by
  rw [e0, e1, e2, e3, e4, e5, e6]

/-- WHAT POINT `t` WRITES BACK is block `t` of the cell's array. -/
theorem flushed_eq (c : Dev nD) (t : Fin cfg0.N) :
    (dats m 0 c).flushed 7 t = ((cfg0.win 7).blk t).view.read (Elt Ideal) (G m c) := by
  rw [Cert.KernelIdeal.Value.flushed7]
  unfold out0_7
  rw [View.canon_unit_zero hz2]
  simp only [View.ld_unit_zero (S := S2048x128) hz2, View.ld_unit_zero (S := S2048x1) hz2, View.ld_unit_zero (S := S128x384) hz2,
    View.ld_unit_zero (S := S384) hz1]
  funext y
  obtain ⟨p, q, rfl⟩ : ∃ (p : Fin 2048) (q : Fin 128), y = ix2 p q := ⟨y 0, y 1, eq_ix2 y⟩
  have hN : cfg0.N = 32 := N_0
  have ht : t.val < 32 := lt_of_lt_of_eq t.isLt hN
  obtain ⟨r, hr⟩ : ∃ r : Fin 65536, r.val = t.val * 2048 + p.val :=
    ⟨⟨t.val * 2048 + p.val, by have := p.isLt; omega⟩, rfl⟩
  have hemb : ((cfg0.win 7).blk t).view.emb (ix2 p q) = ix2 r q := by
    obtain ⟨-, -, -, -, -, -, -, -, -, -, -, -, e0, e1⟩ := idx_facts t
    funext a; apply Fin.ext
    match a with
    | ⟨0, _⟩ => show win0_7.index t 0 * 2048 + 1 * p.val = r.val; rw [e0, hr]; omega
    | ⟨1, _⟩ => show win0_7.index t 1 * 128 + 1 * q.val = q.val; rw [e1]; omega
  show k0_pay1 (F := Ideal) (iblk m c 0 t) (iblk m c 1 t) (iblk m c 2 t) (iblk m c 3 t) (iblk m c 5 t) (iblk m c 4 t) (iblk m c 6 t) (ix2 p q)
    = G m c (((cfg0.win 7).blk t).view.emb (ix2 p q))
  rw [hemb]
  refine (Body.pay_apply (iblk m c 0 t) (iblk m c 1 t) (iblk m c 2 t) (iblk m c 3 t) (iblk m c 5 t) (iblk m c 4 t) (iblk m c 6 t) p q).trans ?_
  exact unit_congr q
    (funext fun k => (blk0 m c t p k r hr).trans (congrFun (V_main_arg0 m c) _))
    (funext fun k => (blk1 m c t p k r hr).trans (congrFun (V_main_arg1 m c) _))
    ((blk2 m c t p r hr).trans (attCol_apply m c r))
    (funext fun g => funext fun k => (blk3 m c t k g).trans (wxT_apply m c k g))
    (funext fun g => funext fun k => (blk5 m c t k g).trans (whT_apply m c k g))
    (funext fun g => (blk4 m c t g).trans (congrFun (V_main_arg4 m c) _))
    (funext fun g => (blk6 m c t g).trans (congrFun (V_main_arg6 m c) _))

/-! ## The 32 blocks tile the array -/

/-- An index is in point `t`'s block of the result iff each coordinate is in the block's range on its axis. -/
theorem mem_blk (t : Fin cfg0.N) (i : S65536x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v3).slice (win0_7.rect t)).set ↔ _
  rw [View.set_slice_whole, Rect.mem_set_unit]
  exact Iff.rfl

/-- Row `r` lies in the block of point `r / 2048`. -/
theorem cover (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, -, -, -, e0, e1⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [e0, ht]; omega
  | ⟨1, _⟩ =>
    show win0_7.index t (1 : Fin 2) * 128 ≤ (i 1).val ∧ (i 1).val < win0_7.index t (1 : Fin 2) * 128 + 128
    rw [e1]; omega

/-- THE RESULT ARRAY after the run is the cell of the arguments. -/
theorem final (c : Dev nD) : (dats m 0 c).arrAt 7 cfg0.N = G m c :=
  (dats m 0 c).arrAt_eq_of_cover 7 (G m c) (fun t _ => flushed_eq m c t) cover

/-- The kernel's run, read: the result array at the cell of the arguments, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.GatedCell.Blocks

end
-- ==== Proof.RefCell.lean ====
/-
  The reference program computes the gated cell.

  Read one result entry at row `p`, hidden unit `q`. The two products contract the data row against weight row
  `g` — exactly the sum in a gate pre-activation —, the bias is broadcast along the rows, the three gate blocks are the
  column ranges [0,128), [128,256), [256,384), the logistic function is spelt 1 / (1 + exp (−z)) with the word for one,
  and the attention score is broadcast along the hidden units. Entry by entry this is the cell's expression.
-/
import proofs.«166381_j38276748542530_1_alg».proof.Proof.Gen.ReferenceIdeal.Read
import proofs.«166381_j38276748542530_1_alg».proof.Proof.Cell

noncomputable section

namespace Cert.GatedCell.Ref

open Idealize.ShloMosaic Idealize.ShloMosaic.ValueIdx Cert.ReferenceIdeal Cert.ReferenceIdeal.Read Cert.GatedCell

variable (p : Fin 65536) (q : Fin 128) (k : Fin 128)

/-! The index functions the reading lemmas compose, at `(p, q)`. -/

theorem lx_u : lidx_main_v0 (idx_main_v8 (ix2 p q)) k = ix2 p k := funext fun a => Fin.ext (by match a with | ⟨0, _⟩ => rfl | ⟨1, _⟩ => rfl)
theorem lx_r : lidx_main_v0 (idx_main_v9 (ix2 p q)) k = ix2 p k := funext fun a => Fin.ext (by match a with | ⟨0, _⟩ => rfl | ⟨1, _⟩ => rfl)
theorem lx_c : lidx_main_v0 (idx_main_v10 (ix2 p q)) k = ix2 p k := funext fun a => Fin.ext (by match a with | ⟨0, _⟩ => rfl | ⟨1, _⟩ => rfl)
theorem rx_u : ridx_main_v0 (idx_main_v8 (ix2 p q)) k = ix2 (rowU q) k := funext fun a => Fin.ext (by match a with | ⟨0, _⟩ => rfl | ⟨1, _⟩ => rfl)
theorem rx_r : ridx_main_v0 (idx_main_v9 (ix2 p q)) k = ix2 (rowR q) k := funext fun a => Fin.ext (by match a with | ⟨0, _⟩ => rfl | ⟨1, _⟩ => rfl)
theorem rx_c : ridx_main_v0 (idx_main_v10 (ix2 p q)) k = ix2 (rowC q) k := funext fun a => Fin.ext (by match a with | ⟨0, _⟩ => rfl | ⟨1, _⟩ => rfl)
theorem bx_u : idx_main_v1 (idx_main_v2 (idx_main_v8 (ix2 p q))) = ix1 (rowU q) := funext fun a => Fin.ext (by match a with | ⟨0, _⟩ => rfl)
theorem bx_r : idx_main_v1 (idx_main_v2 (idx_main_v9 (ix2 p q))) = ix1 (rowR q) := funext fun a => Fin.ext (by match a with | ⟨0, _⟩ => rfl)
theorem bx_c : idx_main_v1 (idx_main_v2 (idx_main_v10 (ix2 p q))) = ix1 (rowC q) := funext fun a => Fin.ext (by match a with | ⟨0, _⟩ => rfl)

theorem lh_u : lidx_main_v4 (idx_main_v11 (ix2 p q)) k = ix2 p k := funext fun a => Fin.ext (by match a with | ⟨0, _⟩ => rfl | ⟨1, _⟩ => rfl)
theorem lh_r : lidx_main_v4 (idx_main_v12 (ix2 p q)) k = ix2 p k := funext fun a => Fin.ext (by match a with | ⟨0, _⟩ => rfl | ⟨1, _⟩ => rfl)
theorem lh_c : lidx_main_v4 (idx_main_v13 (ix2 p q)) k = ix2 p k := funext fun a => Fin.ext (by match a with | ⟨0, _⟩ => rfl | ⟨1, _⟩ => rfl)
theorem rh_u : ridx_main_v4 (idx_main_v11 (ix2 p q)) k = ix2 (rowU q) k := funext fun a => Fin.ext (by match a with | ⟨0, _⟩ => rfl | ⟨1, _⟩ => rfl)
theorem rh_r : ridx_main_v4 (idx_main_v12 (ix2 p q)) k = ix2 (rowR q) k := funext fun a => Fin.ext (by match a with | ⟨0, _⟩ => rfl | ⟨1, _⟩ => rfl)
theorem rh_c : ridx_main_v4 (idx_main_v13 (ix2 p q)) k = ix2 (rowC q) k := funext fun a => Fin.ext (by match a with | ⟨0, _⟩ => rfl | ⟨1, _⟩ => rfl)
theorem bh_u : idx_main_v5 (idx_main_v6 (idx_main_v11 (ix2 p q))) = ix1 (rowU q) := funext fun a => Fin.ext (by match a with | ⟨0, _⟩ => rfl)
theorem bh_r : idx_main_v5 (idx_main_v6 (idx_main_v12 (ix2 p q))) = ix1 (rowR q) := funext fun a => Fin.ext (by match a with | ⟨0, _⟩ => rfl)
theorem bh_c : idx_main_v5 (idx_main_v6 (idx_main_v13 (ix2 p q))) = ix1 (rowC q) := funext fun a => Fin.ext (by match a with | ⟨0, _⟩ => rfl)

theorem att_ix : idx_main_v31 (idx_main_v32 (ix2 p q)) = ix1 p := funext fun a => Fin.ext (by match a with | ⟨0, _⟩ => rfl)

/-- The reference's result, as the reading lemmas name it, is the cell of its seven arguments. -/
theorem result_eq (x0 x1 : FVec Ideal ⟨2, ![65536, 128]⟩ .f32) (x2 : FVec Ideal ⟨1, ![65536]⟩ .f32)
    (x3 : FVec Ideal ⟨2, ![384, 128]⟩ .f32) (x4 : FVec Ideal ⟨1, ![384]⟩ .f32)
    (x5 : FVec Ideal ⟨2, ![384, 128]⟩ .f32) (x6 : FVec Ideal ⟨1, ![384]⟩ .f32) :
    val_main_v38 (F := Ideal) x0 x1 x2 x3 x4 x5 x6 = next x0 x1 x2 x3 x4 x5 x6 := by
  funext i
  obtain ⟨p, q, rfl⟩ : ∃ (p : Fin 65536) (q : Fin 128), i = ix2 p q := ⟨i 0, i 1, eq_ix2 i⟩
  simp only [val_main_v38_apply, val_main_v37_apply, val_main_v36_apply, val_main_v35_apply, val_main_v34_apply,
    val_main_cst_3_apply, val_main_v33_apply, val_main_v32_apply, val_main_v31_apply, val_main_v30_apply,
    val_main_v29_apply, val_main_v28_apply, val_main_v27_apply, val_main_v26_apply, val_main_cst_2_apply,
    val_main_v25_apply, val_main_v24_apply, val_main_cst_1_apply, val_main_v23_apply, val_main_v22_apply,
    val_main_v21_apply, val_main_v20_apply, val_main_v19_apply, val_main_cst_0_apply, val_main_v18_apply,
    val_main_v17_apply, val_main_cst_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply,
    val_main_v3_apply, val_main_v2_apply, val_main_v1_apply, val_main_v0_apply,
    lx_u, lx_r, lx_c, rx_u, rx_r, rx_c, bx_u, bx_r, bx_c, lh_u, lh_r, lh_c, rh_u, rh_r, rh_c, bh_u, bh_r, bh_c, att_ix,
    Ideal.ofBits_def, Ideal.addf_def, Ideal.subf_def, Ideal.mulf_def, Ideal.hostDivf_def, Ideal.hostNegf_def, Ideal.negf_def,
    Ideal.hostUnary_exp_def, Ideal.hostUnary_tanh_def, one_word, logistic_spelt]
  rfl

end Cert.GatedCell.Ref

end
-- ==== Proof.lean ====
/-
  The certificate of the attention-gated recurrent cell: the kernel and its reference compute one function.

  A batch of 65536 rows, 128 inputs and 128 hidden units per row. The kernel tiles the batch into 32 blocks of 2048
  rows; on each block it multiplies the input rows and the previous-state rows by the transposed weights (two products
  into zero accumulators), adds the biases, cuts the three gates out of the 384 columns, and blends the previous state
  with the candidate by the attention-scaled update gate. The reference does the same on whole arrays with the weights
  untransposed and the logistic function spelt out. On the extended reals both are the expression of Proof/Cell.lean,
  entry by entry: the changes of float format are the identity, a product into a zero accumulator is the plain sum,
  and the logistic operation is 1 / (1 + exp (−z)) by definition. No step needs the inputs to be finite.

  The three frames are the generated ones (the reference's is its run with the result dropped); the ideal pass rewrote
  nothing, so there is nothing to preserve; the value claim puts the kernel's run (Proof/Blocks.lean) beside the
  reference's run read as the cell (Proof/RefCell.lean).
-/
import proofs.«166381_j38276748542530_1_alg».proof.Defs
import proofs.«166381_j38276748542530_1_alg».proof.Proof.Gen.Kernel
import proofs.«166381_j38276748542530_1_alg».proof.Proof.Gen.Kernel.Skeleton
import proofs.«166381_j38276748542530_1_alg».proof.Proof.Gen.Kernel.Launch
import proofs.«166381_j38276748542530_1_alg».proof.Proof.Gen.Kernel.Points
import proofs.«166381_j38276748542530_1_alg».proof.Proof.Gen.Kernel.Frame
import proofs.«166381_j38276748542530_1_alg».proof.Proof.Gen.KernelIdeal
import proofs.«166381_j38276748542530_1_alg».proof.Proof.Gen.KernelIdeal.Skeleton
import proofs.«166381_j38276748542530_1_alg».proof.Proof.Gen.KernelIdeal.Launch
import proofs.«166381_j38276748542530_1_alg».proof.Proof.Gen.KernelIdeal.Points
import proofs.«166381_j38276748542530_1_alg».proof.Proof.Gen.KernelIdeal.Frame
import proofs.«166381_j38276748542530_1_alg».proof.Proof.Gen.ReferenceIdeal
import proofs.«166381_j38276748542530_1_alg».proof.Proof.Gen.Pre_finite_inputs
import proofs.«166381_j38276748542530_1_alg».proof.Proof.Gen.KernelIdeal.Value
import proofs.«166381_j38276748542530_1_alg».proof.Proof.Gen.ReferenceIdeal.Run
import proofs.«166381_j38276748542530_1_alg».proof.Proof.Gen.ReferenceIdeal.Read
import proofs.«166381_j38276748542530_1_alg».proof.Proof.Blocks
import proofs.«166381_j38276748542530_1_alg».proof.Proof.RefCell
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the seven arguments the kernel ends with the cell of its arguments and the reference
    with the cell of its own, which are the same arrays. -/
theorem algebraic : Cert.algebraic_KernelIdeal_ReferenceIdeal := by
  intro m ρ m' ρ' _ hagree
  refine ⟨fun c => Cert.GatedCell.Blocks.G m c, Cert.GatedCell.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.GatedCell.Ref.result_eq]
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
